-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : IVec S16384 32) (main_arg2 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S16384 : Shape := ⟨1, ![16384]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S16384x1 : Shape := ⟨2, ![16384, 1]⟩

abbrev nBuf : Space → Nat
  | .hbm => 26
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1x1024, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1x1024, .f32⟩
  | .hbm, ⟨12, _⟩ => ⟨S16384x1, .f32⟩
  | .hbm, ⟨13, _⟩ => ⟨S16384, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1, .f32⟩
  | .local _ .vmem, ⟨6, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S1024x1024 : Shape := ⟨2, ![1024, 1024]⟩
abbrev S_ : Shape := ⟨0, ![]⟩
abbrev S1024 : Shape := ⟨1, ![1024]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S1024, .f32⟩
  | .hbm, ⟨15, _⟩ => ⟨S16384x1, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_c : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  reducesTo_S1024x1024_S1024_d1 : S1024x1024.ReducesTo [1] S1024
  transposes_S1024x1024_S1024x1024_1_0 : S1024x1024.Transposes [1, 0] S1024x1024
  bcast_S16384_S16384x1_0 : S16384.BroadcastsInDim S16384x1 (![0] : Fin 1 → Fin S16384x1.rank)
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S16384 : S_.BroadcastsInDim S16384 (![] : Fin 0 → Fin S16384.rank)
  reducesTo_S16384_S_d0 : S16384.ReducesTo [0] S_
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The loss both programs compute, written once as a function of the two float arrays and the label array, at the
  ideal instance (floats are extended reals, every operation exact).

  For a feature row `r` and a center `j` the shifted squared distance ‖f − c + ε‖² is expanded as
  ‖f‖² + ‖c‖² − 2·⟨f, c⟩ + 2ε·(Σf − Σc) + ε²·d, clamped below at zero and rooted; a row's value is the minimum of
  these over the centers, from +∞. The loss is the label-masked mean of the rows' minima; that last stretch is the
  same list of host operations in both programs, and is kept closed here as `lossTail`.
-/
import Idealize.ShloMosaic.PureOps.Ideal.Laws
import Idealize.ShloMosaic.Lib.ValueIdx

noncomputable section

namespace Cert.MinDist

open Idealize.ShloMosaic Idealize.ShloMosaic.ValueIdx

abbrev SFeat : Shape := ⟨2, ![16384, 1024]⟩
abbrev SCent : Shape := ⟨2, ![1024, 1024]⟩
abbrev SRows : Shape := ⟨1, ![16384]⟩
abbrev SCol : Shape := ⟨2, ![16384, 1]⟩
abbrev SScalar : Shape := ⟨0, ![]⟩

/-- The expanded shifted squared distance from a row's and a center's aggregates: the two squared norms, the inner
    product, and the two plain sums. The grouping is the programs' own: ((‖f‖² + ‖c‖²) − 2·⟨f,c⟩) + 2ε·(Σf − Σc), then + ε²·d. -/
def sqExp (f2 c2 fc fs cs : EReal) : EReal :=
  f2 + c2 - Ideal.ofBits .f32 0x40000000#32 * fc + Ideal.ofBits .f32 0x360637BD#32 * (fs - cs)
    + Ideal.ofBits .f32 0x308CBCCC#32

/-- The distance: the root of the expansion clamped below at zero. -/
def distOf (f2 c2 fc fs cs : EReal) : EReal :=
  Ideal.sqrt (max (sqExp f2 c2 fc fs cs) (Ideal.ofBits .f32 0x00000000#32))

/-- The distance of feature row `r` to center `j`. -/
def pairDist (X : SFeat.Idx → EReal) (Cn : SCent.Idx → EReal) (r : Fin 16384) (j : Fin 1024) : EReal :=
  distOf (∑ k : Fin 1024, X (ix2 r k) * X (ix2 r k)) (∑ k : Fin 1024, Cn (ix2 j k) * Cn (ix2 j k))
    (∑ k : Fin 1024, X (ix2 r k) * Cn (ix2 j k)) (∑ k : Fin 1024, X (ix2 r k)) (∑ k : Fin 1024, Cn (ix2 j k))

/-- A row's distance to its nearest center: the minimum over the centers, from +∞. -/
def rowMin (X : SFeat.Idx → EReal) (Cn : SCent.Idx → EReal) (r : Fin 16384) : EReal :=
  (Finset.univ : Finset (Fin 1024)).fold min (Ideal.ofBits .f32 0x7F800000#32) (pairDist X Cn r)

/-- The rows' minima as a rank-1 array. -/
def minDist (X : SFeat.Idx → EReal) (Cn : SCent.Idx → EReal) : SRows.Idx → EReal := fun i => rowMin X Cn (i 0)

/-- The same as a column `[16384, 1]`: what the kernel's output array holds. -/
def minDistCol (X : SFeat.Idx → EReal) (Cn : SCent.Idx → EReal) : SCol.Idx → EReal := fun i => rowMin X Cn (i 0)

/-- The closing stretch of both programs: the mask of the rows labelled zero, its count, and the masked sum of the rows'
    minima divided by the count plus 1e-5. Stated over the shape facts it takes, so that each program's own witnesses fit. -/
def lossTail (hb : SScalar.BroadcastsInDim SRows (![] : Fin 0 → Fin SRows.rank)) (hr : SRows.ReducesTo [0] SScalar)
    (h0 : 0 < SScalar.numel) (d : FVec Ideal SRows .f32) (lab : IVec SRows 32) : FVec Ideal SScalar .f32 :=
  Host.divf
    (Host.reduceAdd (mulf d (uitofp (F := Ideal) .f32 (cmpi .eq lab (broadcastInDim SRows ![] hb (constantI SScalar 32 0#32)))))
      (constant (F := Ideal) SScalar .f32 0x00000000#32) hr h0)
    (addf (Host.reduceAdd (uitofp (F := Ideal) .f32 (cmpi .eq lab (broadcastInDim SRows ![] hb (constantI SScalar 32 0#32))))
      (constant (F := Ideal) SScalar .f32 0x00000000#32) hr h0) (constant (F := Ideal) SScalar .f32 0x3727C5AC#32))

end Cert.MinDist

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibRowMin.lean ====
/-
  General lemmas: a row-wise minimum, and a matrix product against a row-major right operand, read at an index at the
  ideal instance.

  * the minimum over the lanes of an `[a,b]` vector, at row `p`, is the fold of `min` over `k` of `src (p, k)` from the
    accumulator's value;
  * the host's reduction with a minimum body over the second axis of an `[a,b]` array is the same fold from its initial
    value;
  * the host's sum over the second axis of an `[a,b]` array, at row `p`, is its initial value plus `Σ k, x (p, k)`;
  * a matrix product `[M,K]·[N,K]ᵀ` (both operands contracted over their columns) into a zero accumulator, at `(p, c)`,
    is `Σ k, lhs (p, k) · rhs (c, k)`.
-/
import Idealize.ShloMosaic.PureOps.Ideal.Laws
import Idealize.ShloMosaic.Lib.ValueIdx

noncomputable section

namespace Cert.RowMin

open Idealize.ShloMosaic Idealize.ShloMosaic.ValueIdx

/-- The index over row `p` of an `[a,b]` shape with `k` inserted on the reduced second axis is `(p, k)`. -/
theorem lift_eq_ix2 {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- A minimum over the lanes (axis 1) of an `[a, b]` vector, read at row `p`: the minimum of that row, from the
    accumulator's value. -/
theorem laneMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun k => src (ix2 p k)) := by
  rw [multiReduction_minimumf_eq_fold]
  refine (h.fold_filter_drop_single _ _ src (ix1 p)).trans ?_
  exact Finset.fold_congr (op := min) (b := Ideal.ofBits φ acc) fun k _ => congrArg src (lift_eq_ix2 h p k)

/-- The host's reduction with a minimum body over axis 1 of an `[a, b]` array, read at row `p`: the minimum of that row,
    from the initial value. -/
theorem hostRowMin_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (min : EReal → EReal → EReal) x init h' hu (ix1 p)
      = (Finset.univ : Finset (Fin b)).fold min (init (Shape.Idx.first hu)) (fun k => x (ix2 p k)) := by
  rw [Host.reduce_eq_fold_single (min : EReal → EReal → EReal) x init h' h hu (ix1 p)]
  exact Finset.fold_congr (op := min) (b := init (Shape.Idx.first hu)) fun k _ => congrArg x (lift_eq_ix2 h p k)

/-- The host's sum over axis 1 of an `[a, b]` array, read at row `p`: the initial value plus the sum of that row. -/
theorem hostRowSum_apply {a b : ℕ} {u : Shape} {φ : FTy} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  exact congrArg (_ + ·) (Finset.sum_congr rfl fun k _ => congrArg x (lift_eq_ix2 h p k))

/-- A matrix product `[M,K]·[N,K]ᵀ` (each operand contracted over its columns) into the zero accumulator, read at
    `(p, c)`: the inner product of the left operand's row `p` with the right operand's row `c`. -/
theorem matmulNT_apply {M K N : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, lhs (ix2 p k) * rhs (ix2 c k) := by
  set D : DotDims ⟨2, ![M, K]⟩ ⟨2, ![N, K]⟩ ⟨2, ![M, N]⟩ := ⟨[1], [1], [0], [0], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (i 1).val := by
    intro i q
    unfold DotDims.rhsIdx
    rw [dif_neg (show ¬(0 : Fin 2) ∈ D.rhsBatch from List.not_mem_nil), dif_pos (show (0 : Fin 2) ∈ D.rhsNonContracting from List.mem_singleton.mpr rfl)]
    rfl
  have r1 : ∀ (i : (⟨2, ![M, N]⟩ : Shape).Idx) (q : D.contr.Idx), (D.rhsIdx i q 1).val = (q ⟨0, Nat.one_pos⟩).val :=
    fun i q => D.rhsIdx_val_of_single rfl i q
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 c k := funext fun ax => Fin.ext (by
    match ax with
    | ⟨0, _⟩ => exact r0 _ _
    | ⟨1, _⟩ => exact (r1 _ _).trans hk)
  rw [el, er]

end Cert.RowMin

end
-- ==== Proof.Payload.lean ====
/-
  What the kernel body stores, read at an index.

  The body holds a tile of 1024 feature rows `x0`, all 1024 centers `x1`, and the centers' squared norms `x2` and plain
  sums `x3` as one-row arrays. Entry (p, j) of its distance tile is the root of the clamped expansion over the
  aggregates of tile row p (summed over its lanes) and center j (read from `x2`, `x3`), the inner product coming from the
  matrix product that contracts both operands over their columns; a change of float format is the identity here. The
  stored column holds, at row p, the minimum of that tile row from +∞.
-/
import proofs.«119332_j90409061580855_1_alg».proof.Proof.Gen.KernelIdeal.Skeleton
import proofs.«119332_j90409061580855_1_alg».proof.Proof.Spec
import proofs.«119332_j90409061580855_1_alg».proof.Proof.LibRowOps
import proofs.«119332_j90409061580855_1_alg».proof.Proof.LibRowMin

noncomputable section

namespace Cert.MinDist.Kern

open Idealize.ShloMosaic Idealize.ShloMosaic.ValueIdx Cert.KernelIdeal Cert.KernelIdeal.Gen Cert.MinDist Cert.RowOps Cert.RowMin

/-- Entry (p, j) of the body's distance tile, from the tile's rows, the centers, and the centers' two aggregates. -/
def tileDist (x0 x1 : S1024x1024.Idx → EReal) (x2 x3 : S1x1024.Idx → EReal) (p j : Fin 1024) : EReal :=
  distOf (∑ k : Fin 1024, x0 (ix2 p k) * x0 (ix2 p k)) (x2 (ix2 (0 : Fin 1) j))
    (∑ k : Fin 1024, x0 (ix2 p k) * x1 (ix2 j k)) (∑ k : Fin 1024, x0 (ix2 p k)) (x3 (ix2 (0 : Fin 1) j))

/-- The body's matrix product at (p, j): the inner product of the left operand's row p with the right operand's row j. -/
theorem innerProd_apply (a b : FVec Ideal S1024x1024 .bf16) (p j : Fin 1024) :
    matmul dot_S1024x1024_S1024x1024_S1024x1024_1_1_0_0_n_n none a b (constant S1024x1024 .f32 0x00000000#32) (ix2 p j)
      = ∑ k : Fin 1024, a (ix2 p k) * b (ix2 j k) :=
  matmulNT_apply dot_S1024x1024_S1024x1024_S1024x1024_1_1_0_0_n_n.wf none a b p j

set_option backward.isDefEq.respectTransparency.types false in
/-- The stored column at row p: the minimum over the centers of the tile's distances, from +∞. -/
theorem pay_apply (x0 x1 : Vec Ideal S1024x1024 .f32) (x2 x3 : Vec Ideal S1x1024 .f32) (p : Fin 1024) :
    k0_pay1 (F := Ideal) x0 x1 x2 x3 (ix2 p (0 : Fin 1))
      = (Finset.univ : Finset (Fin 1024)).fold min (Ideal.ofBits .f32 0x7F800000#32) (tileDist x0 x1 x2 x3 p) := by
  unfold k0_pay1
  dsimp only
  rw [shapeCast_a_a1_apply, laneMin_apply]
  refine Finset.fold_congr (op := min) (b := Ideal.ofBits .f32 0x7F800000#32) fun j _ => ?_
  unfold tileDist distOf sqExp
  simp only [Idealize.ShloMosaic.sqrt, maximumf_apply, addf_apply, subf_apply, mulf_apply, broadcast_apply, truncf_apply,
    rowParam_spread_apply, innerProd_apply, Ideal.sqrt_def, Ideal.ofBits_def]
  rw [rowSum_spread_apply, rowSum_spread_apply]
  simp only [mulf_apply]

/-- One grid point's stored column against the whole arrays: when the tile `x0` is rows `b·1024 …` of the features `X`,
    `x1` is the centers `Cn`, and `x2`, `x3` hold the centers' squared norms and plain sums, the column's entry at `y` is the
    minimum distance of feature row `b·1024 + y₀`. -/
theorem point_value (X : SFeat.Idx → EReal) (Cn : SCent.Idx → EReal)
    (x0 x1 : Vec Ideal S1024x1024 .f32) (x2 x3 : Vec Ideal S1x1024 .f32) (b : ℕ)
    (h0 : ∀ (p k : Fin 1024) (r : Fin 16384), r.val = b * 1024 + p.val → x0 (ix2 p k) = X (ix2 r k))
    (h1 : ∀ j k : Fin 1024, x1 (ix2 j k) = Cn (ix2 j k))
    (h2 : ∀ j : Fin 1024, x2 (ix2 (0 : Fin 1) j) = ∑ k : Fin 1024, Cn (ix2 j k) * Cn (ix2 j k))
    (h3 : ∀ j : Fin 1024, x3 (ix2 (0 : Fin 1) j) = ∑ k : Fin 1024, Cn (ix2 j k))
    (y : S1024x1.Idx) (r : Fin 16384) (hr : r.val = b * 1024 + (y 0).val) :
    k0_pay1 (F := Ideal) x0 x1 x2 x3 y = rowMin X Cn r := by
  obtain ⟨p, u, rfl⟩ : ∃ (p : Fin 1024) (u : Fin 1), y = ix2 p u := ⟨y 0, y 1, eq_ix2 y⟩
  obtain rfl : u = 0 := Subsingleton.elim _ _
  rw [pay_apply]
  unfold rowMin
  refine Finset.fold_congr (op := min) (b := Ideal.ofBits .f32 0x7F800000#32) fun j _ => ?_
  unfold tileDist pairDist
  have e0 : ∀ k : Fin 1024, x0 (ix2 p k) = X (ix2 r k) := fun k => h0 p k r hr
  simp only [e0, h1, h2, h3]

end Cert.MinDist.Kern

end
-- ==== Proof.LibColumn.lean ====
/-
  General lemmas: a rank-1 array kept as a column or a row, read at an index.

  * an `[a]` array broadcast in dimension 0 to the column `[a, 1]` reads, at `(i, 0)`, the operand at `i`;
  * a column `[a, 1]` reshaped to the row `[1, a]` reads, at `(0, j)`, the column at `(j, 0)`;
  * a column `[a, 1]` reshaped to `[a]` reads, at `i`, the column at `(i, 0)`.
-/
import Idealize.ShloMosaic.Lib.ValueIdx
import Idealize.ShloMosaic.Lib.Pipeline.Value

noncomputable section

namespace Cert.Column

open Idealize.ShloMosaic Idealize.ShloMosaic.ValueIdx

variable {α : Type}

/-- An `[a]` array broadcast along axis 0 into the column `[a, 1]`: at `(i, u)` it is the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` reshaped to the row `[1, a]`: at `(u, j)` it is the column's entry of row `j`. -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- A column `[a, 1]` reshaped to `[a]`: at `i` it is the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Column

end
-- ==== Proof.KernelValue.lean ====
/-
  The idealized kernel's run, read: its result buffer ends at `lossTail` of the rows' minima `minDist` of the launched
  features and centers.

  The host lines before the region leave the centers' squared norms and plain sums as one-row arrays. Grid point t stages
  feature rows t·1024 … t·1024+1023, all the centers and the two one-row arrays, and writes back rows t·1024 … of the
  output column; each written entry is the row's minimum distance, and the sixteen blocks tile the column. The host
  lines after the region reshape the column to a rank-1 array and apply the closing stretch to it.
-/
import proofs.«119332_j90409061580855_1_alg».proof.Proof.Gen.KernelIdeal.Frame
import proofs.«119332_j90409061580855_1_alg».proof.Proof.Payload
import proofs.«119332_j90409061580855_1_alg».proof.Proof.LibColumn
import Idealize.ShloMosaic.Lib.Pipeline.Value
import Idealize.ShloMosaic.Lib.StableHlo.Run

set_option maxRecDepth 16384

noncomputable section

namespace Cert.MinDist.Kern

open Idealize.ShloMosaic Idealize.ShloMosaic.TcCoe Idealize.ShloMosaic.ValueIdx Idealize.ShloMosaic.Tactic
open Idealize.SL Idealize.SL.Sem
open Idealize.ShloMosaic.Pipeline (Dat)
open Cert.KernelIdeal Cert.KernelIdeal.Gen Cert.MinDist Cert.Column Cert.RowMin

variable (m : (ℓ : Loc nD τ sig) → Buf (Elt Ideal) ℓ) (ρ : Dev nD → PrngReg)

/-- The features and the centers as launched. -/
abbrev feat (c : Dev nD) : SFeat.Idx → EReal := m ((c : Thread nD τ).loc main_arg0)
abbrev cent (c : Dev nD) : SCent.Idx → EReal := m ((c : Thread nD τ).loc main_arg2)

theorem cent_reduce : S1024x1024.Reduces [1] S1024 := by decide

/-! ## The host lines before the region -/

/-- The one-row array of the centers' squared norms, as the region finds it. -/
theorem sqnorm_row_eq (c : Dev nD) : (V m c main_v3 : S1x1024.Idx → EReal)
    = shapeCast S1x1024 (broadcastInDim S1024x1 ![0] bcast_S1024_S1024x1_0
        (Host.reduceAdd (mulf (cent m c) (cent m c)) (constant (F := Ideal) S_ .f32 0x00000000#32) reducesTo_S1024x1024_S1024_d1 h_S_))
        shapeCasts_S1024x1_S1x1024 := by
  show StableHlo.after hostOps0 (fun b => m (c, b)) (Proc.devRef .tc main_v3) = _
  after_results
  rfl

/-- The one-row array of the centers' plain sums, as the region finds it. -/
theorem sum_row_eq (c : Dev nD) : (V m c main_v6 : S1x1024.Idx → EReal)
    = shapeCast S1x1024 (broadcastInDim S1024x1 ![0] bcast_S1024_S1024x1_0
        (Host.reduceAdd (cent m c) (constant (F := Ideal) S_ .f32 0x00000000#32) reducesTo_S1024x1024_S1024_d1 h_S_))
        shapeCasts_S1024x1_S1x1024 := by
  show StableHlo.after hostOps0 (fun b => m (c, b)) (Proc.devRef .tc main_v6) = _
  after_results
  rfl

theorem sqnorm_row_apply (c : Dev nD) (j : Fin 1024) :
    (V m c main_v3 : S1x1024.Idx → EReal) (ix2 (0 : Fin 1) j) = ∑ k : Fin 1024, cent m c (ix2 j k) * cent m c (ix2 j k) := by
  rw [sqnorm_row_eq, shapeCast_a1_1a_apply, broadcastInDim_a_a1_apply, hostRowSum_apply _ _ _ cent_reduce]
  simp only [constant_apply, Ideal.ofBits_zero_f32, zero_add, mulf_apply]

theorem sum_row_apply (c : Dev nD) (j : Fin 1024) :
    (V m c main_v6 : S1x1024.Idx → EReal) (ix2 (0 : Fin 1) j) = ∑ k : Fin 1024, cent m c (ix2 j k) := by
  rw [sum_row_eq, shapeCast_a1_1a_apply, broadcastInDim_a_a1_apply, hostRowSum_apply _ _ _ cent_reduce]
  simp only [constant_apply, Ideal.ofBits_zero_f32, zero_add]

/-! ## The blocks -/

theorem hz : (![0, 0] : Fin 2 → Nat) = fun _ => 0 := funext fun a => by fin_cases a <;> rfl

/-- The printed index maps over the grid: point t stages the features' row block that the output's row block t names;
    every other block index is 0; the output's row blocks stay below 16. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every row block of the output is some point's. -/
theorem idx_onto : ∀ q : Fin 16, ∃ t : Fin cfg0.N, win0_4.index t = ![q.val, 0] :=
  (by decide +kernel : ∀ q : Fin 16, ∃ t : Fin grid0.N, win0_4.index t = ![q.val, 0])

/-- What point `t` writes back is block `t` of the column of the rows' minima. -/
theorem flushed_eq (c : Dev nD) (t : Fin cfg0.N) :
    (dats m 0 c).flushed 4 t = ((cfg0.win 4).blk t).view.read (Elt Ideal) (minDistCol (feat m c) (cent m c)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz]
  obtain ⟨e00, e01, e10, e11, e20, e21, e30, e31, e41, e4le⟩ := idx_facts t
  funext y
  show k0_pay1 (iblk m c 0 t) (iblk m c 1 t) (iblk m c 2 t) (iblk m c 3 t) y
    = rowMin (feat m c) (cent m c) ((((cfg0.win 4).blk t).view.emb y) 0)
  refine point_value (feat m c) (cent m c) (iblk m c 0 t) (iblk m c 1 t) (iblk m c 2 t) (iblk m c 3 t)
    (win0_4.index t (0 : Fin 2)) ?_ ?_ ?_ ?_ y ((((cfg0.win 4).blk t).view.emb y) 0) ?_
  · intro p k r hr
    show V m c main_arg0 (((cfg0.win 0).blk t).view.emb (ix2 p k)) = feat m c (ix2 r k)
    rw [V_main_arg0]
    refine congrArg (m ((c : Thread nD τ).loc main_arg0)) (funext fun a => Fin.ext ?_)
    match a with
    | ⟨0, _⟩ => show win0_0.index t (0 : Fin 2) * 1024 + 1 * p.val = r.val; omega
    | ⟨1, _⟩ => show win0_0.index t (1 : Fin 2) * 1024 + 1 * k.val = k.val; omega
  · intro j k
    show V m c main_arg2 (((cfg0.win 1).blk t).view.emb (ix2 j k)) = cent m c (ix2 j k)
    rw [V_main_arg2]
    refine congrArg (m ((c : Thread nD τ).loc main_arg2)) (funext fun a => Fin.ext ?_)
    match a with
    | ⟨0, _⟩ => show win0_1.index t (0 : Fin 2) * 1024 + 1 * j.val = j.val; omega
    | ⟨1, _⟩ => show win0_1.index t (1 : Fin 2) * 1024 + 1 * k.val = k.val; omega
  · intro j
    show V m c main_v3 (((cfg0.win 2).blk t).view.emb (ix2 (0 : Fin 1) j)) = _
    have e : ((cfg0.win 2).blk t).view.emb (ix2 (0 : Fin 1) j) = ix2 (0 : Fin 1) j := funext fun a => Fin.ext (by
      match a with
      | ⟨0, _⟩ => show win0_2.index t (0 : Fin 2) * 1 + 1 * 0 = 0; omega
      | ⟨1, _⟩ => show win0_2.index t (1 : Fin 2) * 1024 + 1 * j.val = j.val; omega)
    rw [e]
    exact sqnorm_row_apply m c j
  · intro j
    show V m c main_v6 (((cfg0.win 3).blk t).view.emb (ix2 (0 : Fin 1) j)) = _
    have e : ((cfg0.win 3).blk t).view.emb (ix2 (0 : Fin 1) j) = ix2 (0 : Fin 1) j := funext fun a => Fin.ext (by
      match a with
      | ⟨0, _⟩ => show win0_3.index t (0 : Fin 2) * 1 + 1 * 0 = 0; omega
      | ⟨1, _⟩ => show win0_3.index t (1 : Fin 2) * 1024 + 1 * j.val = j.val; omega)
    rw [e]
    exact sum_row_apply m c j
  · show win0_4.index t (0 : Fin 2) * 1024 + 1 * (y 0).val = win0_4.index t (0 : Fin 2) * 1024 + (y 0).val
    omega

/-- An index of the output column is in point `t`'s block iff each coordinate is in the block's range. -/
theorem mem_blk (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v7).slice (win0_4.rect t)).set ↔ _
  rw [View.set_slice_whole, Rect.mem_set_unit]
  exact Iff.rfl

/-- The sixteen blocks tile the column: row r is in the block of the point whose row block is r / 1024. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The output column after the region: the rows' minima. -/
theorem final (c : Dev nD) : (dats m 0 c).arrAt 4 cfg0.N = minDistCol (feat m c) (cent m c) :=
  (dats m 0 c).arrAt_eq_of_cover 4 (minDistCol (feat m c) (cent m c)) (fun t _ => flushed_eq m c t) cover

/-! ## The host lines after the region -/

theorem result_eq (c : Dev nD) :
    Pipeline.afterTail₀ cfgs (dats m) 0 (V0 m) [hostOps1] c main_v16
      = lossTail bcast_S_S16384 reducesTo_S16384_S_d0 h_S_ (minDist (feat m c) (cent m c)) (m ((c : Thread nD τ).loc main_arg1)) := by
  unfold Pipeline.afterTail₀
  show StableHlo.after hostOps1 _ (Proc.devRef .tc main_v16) = _
  after_results
  have e7 : Pipeline.withArrays (cfgs 0).spec c (V0 m c) (fun w => (dats m 0 c).arrAt w (cfgs 0).N) (Proc.devRef .tc main_v7)
      = minDistCol (feat m c) (cent m c) :=
    (Pipeline.withArrays_arr spec0 launch0.win.arr_inj c _ _ 4).trans (final m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [e7, e1]
  have ed : (fun i => shapeCast S16384 (minDistCol (feat m c) (cent m c)) shapeCasts_S16384x1_S16384 i)
      = minDist (feat m c) (cent m c) := by
    funext i
    obtain ⟨r, rfl⟩ : ∃ r : Fin 16384, i = ix1 r := ⟨i 0, eq_ix1 i⟩
    rw [shapeCast_a1_a_apply]
    rfl
  show lossTail bcast_S_S16384 reducesTo_S16384_S_d0 h_S_
      (fun i => shapeCast S16384 (minDistCol (feat m c) (cent m c)) shapeCasts_S16384x1_S16384 i) (m ((c : Thread nD τ).loc main_arg1)) = _
  exact congrArg (fun d => lossTail bcast_S_S16384 reducesTo_S16384_S_d0 h_S_ d (m ((c : Thread nD τ).loc main_arg1))) ed

/-! ## The run, read -/

/-- Every weakly fair execution of the idealized kernel's @main terminates with its result at the closing stretch of the
    rows' minima of the launched features and centers, and the arguments unchanged. -/
theorem run : θ_run defs (onTc (τ := τ) (main (F := Ideal))) ⟨m, fun _ => 0, ρ⟩ fun r => ∀ c : Dev nD,
      r.2.mem ((c : Thread nD τ).loc main_v16)
        = lossTail bcast_S_S16384 reducesTo_S16384_S_d0 h_S_ (minDist (feat m c) (cent m c)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v16 (Pipeline.mem_restRefs_of main_v16 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).1 1).trans (((dats m 0 c).arrAt_in 1 rfl _).trans ((A_eq m c 1).trans (V_main_arg2 m c)))⟩)
    (run_main m ρ)

end Cert.MinDist.Kern

end
-- ==== Proof.RefSide.lean ====
/-
  The reference's rows' minima are `minDist` of its two float arguments.

  Each of the reference's stages is read at an index: the entry (r, j) of its distance matrix is the root of the clamped
  expansion over the aggregates of feature row r and center j — its matrix product against the transposed centers is the
  inner product of row r with center j —, and its reduction over the centers is the minimum over j from +∞.
-/
import proofs.«119332_j90409061580855_1_alg».proof.Proof.Gen.ReferenceIdeal.Run
import proofs.«119332_j90409061580855_1_alg».proof.Proof.Gen.ReferenceIdeal.Read
import proofs.«119332_j90409061580855_1_alg».proof.Proof.Spec

noncomputable section

namespace Cert.MinDist.Ref

open Idealize.ShloMosaic Idealize.ShloMosaic.ValueIdx Cert.ReferenceIdeal Cert.ReferenceIdeal.Gen Cert.ReferenceIdeal.Read Cert.MinDist

/-- Reducing the feature matrix's shape over its second axis leaves its rows. -/
theorem rows_reduce : S16384x1024.Reduces [1] S16384 := by decide

/-- The index over row `r` with lane `j` inserted on the reduced axis is (r, j). -/
theorem lift_row (h : S16384x1024.Reduces [1] S16384) (r : Fin 16384) (j : Fin 1024) : h.lift (ix1 r) j = ix2 r j :=
  funext fun a => Fin.ext (by match a with | ⟨0, _⟩ => rfl | ⟨1, _⟩ => rfl)

/-- Entry (r, j) of the reference's distance matrix. -/
theorem dist_apply (X : FVec Ideal S16384x1024 .f32) (Cn : FVec Ideal S1024x1024 .f32) (r : Fin 16384) (j : Fin 1024) :
    val_main_v28 (F := Ideal) X Cn (ix2 r j) = pairDist X Cn r j := by
  have e1 : ∀ k, idx_main_v1 (idx_main_v8 (idx_main_v10 (ix2 r j))) k = ix2 r k := fun k =>
    funext fun a => Fin.ext (by match a with | ⟨0, _⟩ => rfl | ⟨1, _⟩ => rfl)
  have e3 : ∀ k, idx_main_v3 (idx_main_v9 (idx_main_v11 (ix2 r j))) k = ix2 j k := fun k =>
    funext fun a => Fin.ext (by match a with | ⟨0, _⟩ => rfl | ⟨1, _⟩ => rfl)
  have e5l : ∀ k, lidx_main_v5 (ix2 r j) k = ix2 r k := fun k =>
    funext fun a => Fin.ext (by match a with | ⟨0, _⟩ => rfl | ⟨1, _⟩ => rfl)
  have e5r : ∀ k, idx_main_v4 (ridx_main_v5 (ix2 r j) k) = ix2 j k := fun k =>
    funext fun a => Fin.ext (by match a with | ⟨0, _⟩ => rfl | ⟨1, _⟩ => rfl)
  have e6 : ∀ k, idx_main_v6 (idx_main_v16 (idx_main_v18 (ix2 r j))) k = ix2 r k := fun k =>
    funext fun a => Fin.ext (by match a with | ⟨0, _⟩ => rfl | ⟨1, _⟩ => rfl)
  have e7 : ∀ k, idx_main_v7 (idx_main_v17 (idx_main_v19 (ix2 r j))) k = ix2 j k := fun k =>
    funext fun a => Fin.ext (by match a with | ⟨0, _⟩ => rfl | ⟨1, _⟩ => rfl)
  rw [val_main_v28_apply, val_main_v27_apply, val_main_v25_apply, val_main_v23_apply, val_main_v15_apply,
    val_main_v12_apply, val_main_v10_apply, val_main_v8_apply, val_main_v1_apply, val_main_v11_apply, val_main_v9_apply,
    val_main_v3_apply, val_main_v14_apply, val_main_v13_apply, val_main_v5_apply, val_main_v22_apply, val_main_v21_apply,
    val_main_v20_apply, val_main_v18_apply, val_main_v16_apply, val_main_v6_apply, val_main_v19_apply, val_main_v17_apply,
    val_main_v7_apply, val_main_v24_apply, val_main_v26_apply]
  unfold pairDist distOf sqExp
  simp only [val_main_v0_apply, val_main_v2_apply, val_main_v4_apply, val_main_cst_apply, val_main_cst_0_apply,
    val_main_cst_1_apply, val_main_cst_2_apply, val_main_cst_3_apply, val_main_cst_4_apply, val_main_cst_5_apply,
    val_main_cst_6_apply, e1, e3, e5l, e5r, e6, e7, Ideal.mulf_def, Ideal.addf_def, Ideal.subf_def, Ideal.maximumf_def,
    Ideal.hostUnary_sqrt_def, Ideal.ofBits_def, Ideal.ofBits_zero_f32, zero_add]

/-- The reference's reduction over the centers, row by row, is the rows' minima. -/
theorem minDist_eq (X : FVec Ideal S16384x1024 .f32) (Cn : FVec Ideal S1024x1024 .f32) :
    val_main_v29 (F := Ideal) X Cn = minDist X Cn := by
  funext i
  obtain ⟨r, rfl⟩ : ∃ r : Fin 16384, i = ix1 r := ⟨i 0, eq_ix1 i⟩
  unfold val_main_v29
  rw [Host.reduce_eq_fold_single FloatOps.minimumf _ _ reducesTo_S16384x1024_S16384_d1 rows_reduce h_S_ (ix1 r)]
  exact Finset.fold_congr (op := min) (b := Ideal.ofBits .f32 0x7F800000#32) fun j _ =>
    (congrArg (val_main_v28 (F := Ideal) X Cn) (lift_row rows_reduce r j)).trans (dist_apply X Cn r j)

/-- The reference's result: the closing stretch applied to the rows' minima and the labels. -/
theorem loss_eq (X : FVec Ideal S16384x1024 .f32) (lab : IVec S16384 32) (Cn : FVec Ideal S1024x1024 .f32) :
    val_main_v37 (F := Ideal) X lab Cn = lossTail bcast_S_S16384 reducesTo_S16384_S_d0 h_S_ (minDist X Cn) lab := by
  unfold val_main_v37 val_main_v35 val_main_v36 val_main_v34 val_main_v33 val_main_v32 val_main_v31 val_main_v30 val_main_c
    val_main_cst_8 val_main_cst_9 val_main_cst_10
  rw [minDist_eq]
  rfl

end Cert.MinDist.Ref

end
-- ==== Proof.lean ====
/-
  The loss: for each of 16384 feature rows the distance to its nearest of 1024 centers — the root of the expansion
  ‖f‖² + ‖c‖² − 2⟨f, c⟩ + 2ε(Σf − Σc) + ε²d of ‖f − c + ε‖², clamped below at zero, minimised over the centers — and
  then the mean of those minima over the rows labelled zero (the masked sum over the count plus 1e-5).

  Both programs compute exactly this at the ideal instance, literal for literal and in the same grouping. The kernel
  takes the rows sixteen tiles of 1024 at a time, forms the inner products by a matrix product that contracts both
  operands over their columns (narrowing them first, which is the identity on extended reals), sums each tile row over
  its lanes, and reads the centers' two aggregates from one-row arrays the host lines before the region prepare; the
  reference forms the same aggregates for all rows at once, with the inner products from a product against the
  transposed centers. The two agree index by index as sums over the same 1024 coordinates and minima over the same 1024
  centers, so no fact about the inputs is needed. The idealization rewrote nothing, so `preserves` is `True`.

  The three frames are the generated ones (the reference's is its generated run with the result dropped).
-/
import proofs.«119332_j90409061580855_1_alg».proof.Defs
import proofs.«119332_j90409061580855_1_alg».proof.Proof.Gen.Kernel
import proofs.«119332_j90409061580855_1_alg».proof.Proof.Gen.Kernel.Skeleton
import proofs.«119332_j90409061580855_1_alg».proof.Proof.Gen.Kernel.Launch
import proofs.«119332_j90409061580855_1_alg».proof.Proof.Gen.Kernel.Points
import proofs.«119332_j90409061580855_1_alg».proof.Proof.Gen.Kernel.Frame
import proofs.«119332_j90409061580855_1_alg».proof.Proof.Gen.KernelIdeal
import proofs.«119332_j90409061580855_1_alg».proof.Proof.Gen.KernelIdeal.Skeleton
import proofs.«119332_j90409061580855_1_alg».proof.Proof.Gen.KernelIdeal.Launch
import proofs.«119332_j90409061580855_1_alg».proof.Proof.Gen.KernelIdeal.Points
import proofs.«119332_j90409061580855_1_alg».proof.Proof.Gen.KernelIdeal.Frame
import proofs.«119332_j90409061580855_1_alg».proof.Proof.Gen.ReferenceIdeal
import proofs.«119332_j90409061580855_1_alg».proof.Proof.Gen.ReferenceIdeal.Run
import proofs.«119332_j90409061580855_1_alg».proof.Proof.Gen.ReferenceIdeal.Read
import proofs.«119332_j90409061580855_1_alg».proof.Proof.Gen.Pre_finite_inputs
import proofs.«119332_j90409061580855_1_alg».proof.Proof.KernelValue
import proofs.«119332_j90409061580855_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with their result at the closing stretch of the rows' minima of the (agreeing) features
    and centers and of the (agreeing) labels. -/
theorem algebraic : Cert.algebraic_KernelIdeal_ReferenceIdeal := by
  intro m ρ m' ρ' _ hagree
  refine ⟨_, Cert.MinDist.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2]
  exact Cert.MinDist.Ref.loss_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
